-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S1000000 32) (main_arg2 : IVec S1000000 32) (main_arg3 : FVec F S128x128 .f32) (main_arg4 : FVec F S128 .f32) (main_arg5 : FVec F S128x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg6 main_v13 main_v16
-- ==== Kernel.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x128 : Shape := ⟨2, ![1000000, 128]⟩
abbrev S1x128 : Shape := ⟨2, ![1, 128]⟩
abbrev S1000x128 : Shape := ⟨2, ![1000, 128]⟩
abbrev S1000x1 : Shape := ⟨2, ![1000, 1]⟩
abbrev S1 : Shape := ⟨1, ![1]⟩
abbrev S100000x40 : Shape := ⟨2, ![100000, 40]⟩

abbrev nBuf : Space → Nat
  | .hbm => 55
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S100000, .f32⟩
  | .hbm, ⟨11, _⟩ => ⟨S1000000x1, .i32⟩
  | .hbm, ⟨12, _⟩ => ⟨S100000, .f32⟩
  | .hbm, ⟨13, _⟩ => ⟨S100000x1, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S_, .f32⟩
  | .hbm, ⟨24, _⟩ => ⟨S100000x128, .f32⟩
  | .hbm, ⟨25, _⟩ => ⟨S1000000x1, .i32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S_, .f32⟩
  | .hbm, ⟨30, _⟩ => ⟨S128x128, .f32⟩
  | .hbm, ⟨31, _⟩ => ⟨S_, .i32⟩
  | .hbm, ⟨32, _⟩ => ⟨S1, .i32⟩
  | .hbm, ⟨33, _⟩ => ⟨S128x128, .f32⟩
  | .hbm, ⟨34, _⟩ => ⟨S_, .f32⟩
  | .hbm, ⟨35, _⟩ => ⟨S128, .f32⟩
  | .hbm, ⟨36, _⟩ => ⟨S_, .i32⟩
  | .hbm, ⟨37, _⟩ => ⟨S1, .i32⟩
  | .hbm, ⟨38, _⟩ => ⟨S128, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x128, .f32⟩
  | .hbm, ⟨48, _⟩ => ⟨S_, .f32⟩
  | .hbm, ⟨49, _⟩ => ⟨S100000x128, .f32⟩
  | .hbm, ⟨50, _⟩ => ⟨S1000000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x40, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x1, .f32⟩
  | .local _ .vmem, ⟨5, _⟩ => ⟨S1000x1, .f32⟩
  | .local _ .vmem, ⟨6, _⟩ => ⟨S128x128, .f32⟩
  | .local _ .vmem, ⟨7, _⟩ => ⟨S1x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x1, .f32⟩
  | .local _ .vmem, ⟨15, _⟩ => ⟨S1000x1, .f32⟩
  | .local _ .vmem, ⟨16, _⟩ => ⟨S128x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S128x128_S128x128 : S128x128.ShapeCasts S128x128
  slices_S100000x128_S100000x40_0_0 : S100000x128.Slices ![0, 0] S100000x40
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S1000x128_S128x128_S1000x128_1_0_0_1_n_n_wf : DotDims.WF S1000x128 S128x128 S1000x128 [1] [0] [0] [1] [] []
  scatter_S128x128_S1_S128x40_01_n_1_0_wf : ScatterDims.WF S128x128 S1 S128x40 [0, 1] [] [1] 0
  scatter_S128_S1_S40_0_n_0_0_wf : ScatterDims.WF S128 S1 S40 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .f32 = 32 ∨ (Rect.block (s := S100000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S100000x128.size a
  hwx0_5 : ∀ i : grid0.Coords, EltTy.bits .f32 = 32 ∨ (Rect.block (s := S100000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .f32 = 32 ∨ (Rect.block (s := S100000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S100000x128.size a
  hwx1_5 : ∀ i : grid1.Coords, EltTy.bits .f32 = 32 ∨ (Rect.block (s := S100000x128) S1000x128.size (cc1_transform_5 i) (hinb1_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S128x128_S1_S128x40_01_n_1_0 : ScatterDims S128x128 S1 S128x40 where
  updateWindowDims := [0, 1]
  insertedWindowDims := []
  scatterDimsToOperandDims := [1]
  indexVectorDim := 0
  wf := scatter_S128x128_S1_S128x40_01_n_1_0_wf
def scatter_S128_S1_S40_0_n_0_0 : ScatterDims S128 S1 S40 where
  updateWindowDims := [0]
  insertedWindowDims := []
  scatterDimsToOperandDims := [0]
  indexVectorDim := 0
  wf := scatter_S128_S1_S40_0_n_0_0_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S100000, .f32⟩
  | .hbm, ⟨11, _⟩ => ⟨S1000000x1, .i32⟩
  | .hbm, ⟨12, _⟩ => ⟨S100000, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S_, .f32⟩
  | .hbm, ⟨23, _⟩ => ⟨S100000x128, .f32⟩
  | .hbm, ⟨24, _⟩ => ⟨S1000000x1, .i32⟩
  | .hbm, ⟨25, _⟩ => ⟨S100000x128, .f32⟩
  | .hbm, ⟨26, _⟩ => ⟨S100000x128, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x128, .f32⟩
  | .hbm, ⟨49, _⟩ => ⟨S_, .f32⟩
  | .hbm, ⟨50, _⟩ => ⟨S100000x128, .f32⟩
  | .hbm, ⟨51, _⟩ => ⟨S1000000x1, .i32⟩
  | .hbm, ⟨52, _⟩ => ⟨S100000x128, .f32⟩
  | .hbm, ⟨53, _⟩ => ⟨S100000x128, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x40, .f32⟩
  | .hbm, ⟨61, _⟩ => ⟨S1x40, .f32⟩
  | .hbm, ⟨62, _⟩ => ⟨S100000x40, .f32⟩
  | .hbm, ⟨63, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KHost.lean ====
/-
  The host operations around the two pallas_calls, read as functions.
  The edge sums: `degK dst` counts, per node, the edges that arrive at it (a scatter-add of ones by destination);
  `neighK h src dst` sums, per node, the rows of `h` at the sources of the edges that arrive at it (a gather by
  source, negative sources counted from the end, then a scatter-add by destination).
  `padW`, `padB`: the second layer's 128 × 40 weight and 40-long bias written into the first columns of a
  zero 128 × 128 matrix and a zero 128-long vector.
-/
import proofs.«409226_j2963527434976_4_alg».proof.Proof.Gen.KernelIdeal.Launch
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- Source indices as the gather takes them: a negative one counted from the end, as a column. -/
def srcCol (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- The in-degree of every node. -/
def degK (dst : IVec S1000000 32) : FVec F S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0 dst)
    (broadcastInDim S1000000 ![] bcast_S_S1000000 (constant S_ .f32 0x3F800000#32))

/-- The sum of the in-neighbours' rows of `h`, for every node. -/
def neighK (h : FVec F S100000x128 .f32) (src dst : IVec S1000000 32) : FVec F S100000x128 .f32 :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 dst)
    (Host.gather gather_S100000x128_S1000000x1_S1000000x128_1_0_n_n_0_1_1128 h (srcCol src))

/-- The second layer's weight in the first 40 columns of a zero 128 × 128 matrix. -/
def padW (w : FVec F S128x40 .f32) : FVec F S128x128 .f32 :=
  Host.scatter scatter_S128x128_S1_S128x40_01_n_1_0 (fun _ b => b)
    (broadcastInDim S128x128 ![] bcast_S_S128x128 (constant S_ .f32 0x00000000#32))
    (broadcastInDim S1 ![] bcast_S_S1 (constantI S_ 32 0#32)) w

/-- The second layer's bias in the first 40 entries of a zero 128-long vector. -/
def padB (b : FVec F S40 .f32) : FVec F S128 .f32 :=
  Host.scatter scatter_S128_S1_S40_0_n_0_0 (fun _ b => b)
    (broadcastInDim S128 ![] bcast_S_S128 (constant S_ .f32 0x00000000#32))
    (broadcastInDim S1 ![] bcast_S_S1 (constantI S_ 32 0#32)) b

variable (X : Valuation τ sig (Elt F))

/-! ## The operations before the first call -/

theorem ops0_v14 : after hostOps0 X (Proc.devRef .tc main_v14)
    = neighK (F := F) (X (Proc.devRef .tc main_arg0)) (X (Proc.devRef .tc main_arg1)) (X (Proc.devRef .tc main_arg2)) := by
  after_results <;> rfl

theorem ops0_v4 : after hostOps0 X (Proc.devRef .tc main_v4)
    = shapeCast S100000x1 (degK (F := F) (X (Proc.devRef .tc main_arg2))) shapeCasts_S100000_S100000x1 := by
  after_results <;> rfl

theorem ops0_v15 : after hostOps0 X (Proc.devRef .tc main_v15)
    = shapeCast S1x128 (X (Proc.devRef .tc main_arg4) : FVec F S128 .f32) shapeCasts_S128_S1x128 := by
  after_results <;> rfl

theorem ops0_arg0 : after hostOps0 X (Proc.devRef .tc main_arg0) = X (Proc.devRef .tc main_arg0) := by
  after_results <;> rfl

theorem ops0_arg1 : after hostOps0 X (Proc.devRef .tc main_arg1) = X (Proc.devRef .tc main_arg1) := by
  after_results <;> rfl

theorem ops0_arg2 : after hostOps0 X (Proc.devRef .tc main_arg2) = X (Proc.devRef .tc main_arg2) := by
  after_results <;> rfl

theorem ops0_arg3 : after hostOps0 X (Proc.devRef .tc main_arg3) = X (Proc.devRef .tc main_arg3) := by
  after_results <;> rfl

theorem ops0_arg5 : after hostOps0 X (Proc.devRef .tc main_arg5) = X (Proc.devRef .tc main_arg5) := by
  after_results <;> rfl

theorem ops0_arg6 : after hostOps0 X (Proc.devRef .tc main_arg6) = X (Proc.devRef .tc main_arg6) := by
  after_results <;> rfl

/-! ## The operations between the two calls -/

set_option maxHeartbeats 1600000 in
theorem ops1_v32 : after hostOps1 X (Proc.devRef .tc main_v32)
    = neighK (F := F) (X (Proc.devRef .tc main_v16)) (X (Proc.devRef .tc main_arg1)) (X (Proc.devRef .tc main_arg2)) := by
  after_results <;> rfl

theorem ops1_v19 : after hostOps1 X (Proc.devRef .tc main_v19) = padW (F := F) (X (Proc.devRef .tc main_arg5)) := by
  after_results <;> rfl

theorem ops1_v33 : after hostOps1 X (Proc.devRef .tc main_v33)
    = shapeCast S1x128 (padB (F := F) (X (Proc.devRef .tc main_arg6))) shapeCasts_S128_S1x128 := by
  after_results <;> rfl

theorem ops1_v16 : after hostOps1 X (Proc.devRef .tc main_v16) = X (Proc.devRef .tc main_v16) := by
  after_results <;> rfl

theorem ops1_v4 : after hostOps1 X (Proc.devRef .tc main_v4) = X (Proc.devRef .tc main_v4) := by
  after_results <;> rfl

/-! ## The operation after the second call -/

theorem ops2_v35 : after hostOps2 X (Proc.devRef .tc main_v35)
    = extractStridedSlice S100000x40 ![0, 0] (X (Proc.devRef .tc main_v34) : FVec F S100000x128 .f32) slices_S100000x128_S100000x40_0_0 := by
  after_results <;> rfl

theorem ops2_v16 : after hostOps2 X (Proc.devRef .tc main_v16) = X (Proc.devRef .tc main_v16) := by
  after_results <;> rfl

end Cert.KernelIdeal.Host

end
-- ==== Proof.Spec.lean ====
/-
  The mathematics both programs compute, index by index, on the extended reals.

  One GraphSAGE layer with the "gcn" aggregator, at node `r` and output feature `q`:
    agg r k   = (neigh r k + h r k) / (deg r + 1)          -- the mean over the node and its in-neighbours
    lin r q   = (∑ k < 128, agg r k · W k q) + b q          -- the dense map
  Layer 1 is `max (lin r q) 0`; layer 2 is `lin` with a 128 × 40 weight.
  `neigh` and `deg` are the edge sums (a gather by source followed by a scatter-add by destination); both
  programs obtain them by the same host operations, so here they are arguments.
  The degree and the bias enter as functions of the node and of the feature: the two programs hold them in
  differently shaped arrays ([N] against [N,1]; [D] against [1,D]) and each side reads its own.
-/
import Idealize.ShloMosaic.PureOps.Ideal
import Idealize.ShloMosaic.Lib.ValueIdx

noncomputable section

namespace Cert.Sage

open Idealize.ShloMosaic Idealize.ShloMosaic.ValueIdx

/-- The word of the float `1.0`, which both programs add to the degree; it is never evaluated. -/
abbrev one : EReal := Ideal.ofBits .f32 0x3F800000#32
/-- The word of the float `0.0` of the rectifier. -/
abbrev zero : EReal := Ideal.ofBits .f32 0x00000000#32

abbrev SNx128 : Shape := ⟨2, ![100000, 128]⟩
abbrev SNx40 : Shape := ⟨2, ![100000, 40]⟩
abbrev S128x128 : Shape := ⟨2, ![128, 128]⟩
abbrev S128x40 : Shape := ⟨2, ![128, 40]⟩

/-- The aggregated feature `k` of node `r`: the neighbours' sum plus the node's own, over the degree plus one. -/
def agg (h nb : FVec Ideal SNx128 .f32) (dg : Fin 100000 → EReal) (r : Fin 100000) (k : Fin 128) : EReal :=
  Ideal.div (nb (ix2 r k) + h (ix2 r k)) (dg r + one)

/-- The dense map into 128 features. -/
def lin128 (h nb : FVec Ideal SNx128 .f32) (dg : Fin 100000 → EReal) (W : FVec Ideal S128x128 .f32)
    (b : Fin 128 → EReal) : FVec Ideal SNx128 .f32 :=
  fun i => (∑ k : Fin 128, agg h nb dg (i 0) k * W (ix2 k (i 1))) + b (i 1)

theorem lin128_ix2 (h nb : FVec Ideal SNx128 .f32) (dg : Fin 100000 → EReal) (W : FVec Ideal S128x128 .f32)
    (b : Fin 128 → EReal) (r : Fin 100000) (q : Fin 128) :
    lin128 h nb dg W b (ix2 r q) = (∑ k : Fin 128, agg h nb dg r k * W (ix2 k q)) + b q := rfl

/-- Layer 1: the dense map rectified. -/
def relu128 (h nb : FVec Ideal SNx128 .f32) (dg : Fin 100000 → EReal) (W : FVec Ideal S128x128 .f32)
    (b : Fin 128 → EReal) : FVec Ideal SNx128 .f32 :=
  fun i => max (lin128 h nb dg W b i) zero

theorem relu128_ix2 (h nb : FVec Ideal SNx128 .f32) (dg : Fin 100000 → EReal) (W : FVec Ideal S128x128 .f32)
    (b : Fin 128 → EReal) (r : Fin 100000) (q : Fin 128) :
    relu128 h nb dg W b (ix2 r q) = max ((∑ k : Fin 128, agg h nb dg r k * W (ix2 k q)) + b q) zero := rfl

/-- Layer 2: the dense map into 40 features. -/
def lin40 (h nb : FVec Ideal SNx128 .f32) (dg : Fin 100000 → EReal) (W : FVec Ideal S128x40 .f32)
    (b : Fin 40 → EReal) : FVec Ideal SNx40 .f32 :=
  fun i => (∑ k : Fin 128, agg h nb dg (i 0) k * W (ix2 k (i 1))) + b (i 1)

theorem lin40_ix2 (h nb : FVec Ideal SNx128 .f32) (dg : Fin 100000 → EReal) (W : FVec Ideal S128x40 .f32)
    (b : Fin 40 → EReal) (r : Fin 100000) (q : Fin 40) :
    lin40 h nb dg W b (ix2 r q) = (∑ k : Fin 128, agg h nb dg r k * W (ix2 k q)) + b q := rfl

/-- A 128-wide dense map whose weight and bias agree with a 40-wide one on the first 40 features agrees with it
    there: the sum over `k` is term by term the same. -/
theorem lin128_eq_lin40 (h nb : FVec Ideal SNx128 .f32) (dg : Fin 100000 → EReal)
    (Wp : FVec Ideal S128x128 .f32) (bp : Fin 128 → EReal) (W : FVec Ideal S128x40 .f32) (b : Fin 40 → EReal)
    (hW : ∀ (k : Fin 128) (q : Fin 40), Wp (ix2 k (q.castLE (by decide))) = W (ix2 k q))
    (hb : ∀ q : Fin 40, bp (q.castLE (by decide)) = b q) (r : Fin 100000) (q : Fin 40) :
    lin128 h nb dg Wp bp (ix2 r (q.castLE (by decide))) = lin40 h nb dg W b (ix2 r q) := by
  rw [lin128_ix2, lin40_ix2, hb]
  exact congrArg (· + b q) (Finset.sum_congr rfl fun k _ => by rw [hW])

end Cert.Sage

end
-- ==== Proof.Pay.lean ====
import proofs.«409226_j2963527434976_4_alg».proof.Proof.Gen.KernelIdeal.Skeleton
import proofs.«409226_j2963527434976_4_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section
open Idealize.ShloMosaic Idealize.ShloMosaic.TcCoe Idealize.ShloMosaic.ValueIdx Idealize.SL.Sem
open Cert.KernelIdeal Cert.KernelIdeal.Gen

namespace Cert.KernelIdeal.Pay

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the contraction, on the row axis: the output's row. -/
theorem lhs_mm_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- On the contracted axis: the contraction coordinate. -/
theorem lhs_mm_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right operand's index, on its contracted axis: the contraction coordinate. -/
theorem rhs_mm_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- On the column axis: the output's column. -/
theorem rhs_mm_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The product into a zero accumulator, at row `p` and column `q`: the sum over the 128 contracted coordinates. -/
theorem matmul_ix2 (A : FVec Ideal S1000x128 .f32) (W : FVec Ideal S128x128 .f32) (p : Fin 1000) (q : Fin 128) :
    matmul (F := Ideal) dot_S1000x128_S128x128_S1000x128_1_0_0_1_n_n none A W (constant (F := Ideal) S1000x128 .f32 0x00000000#32) (ix2 p q)
      = ∑ k : Fin 128, A (ix2 p k) * W (ix2 k q) := by
  refine (Ideal.matmul_constant_zero_apply dot_S1000x128_S128x128_S1000x128_1_0_0_1_n_n none A W (ix2 p q)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The first layer's block at row `p`, feature `q`: the mean over the node and its neighbours, through the dense map,
    plus the bias, rectified. -/
theorem pay0_apply (nbB hB : Vec Ideal S1000x128 .f32) (dB : Vec Ideal S1000x1 .f32) (Wb : Vec Ideal S128x128 .f32)
    (bb : Vec Ideal S1x128 .f32) (p : Fin 1000) (q : Fin 128) :
    k0_pay1 (F := Ideal) nbB hB dB Wb bb (ix2 p q)
      = max ((∑ k : Fin 128, Ideal.div (nbB (ix2 p k) + hB (ix2 p k)) (dB (ix2 p (0 : Fin 1)) + Cert.Sage.one) * Wb (ix2 k q))
              + bb (ix2 (0 : Fin 1) q)) Cert.Sage.zero := by
  unfold k0_pay1
  refine (maximumf_apply _ _ (ix2 p q)).trans ?_
  refine congrArg₂ max ?_ rfl
  refine (addf_apply _ _ (ix2 p q)).trans ?_
  refine congrArg₂ (· + ·) ?_ ?_
  · refine (matmul_ix2 _ Wb p q).trans ?_
    refine Finset.sum_congr rfl fun k _ => ?_
    refine congrArg (· * Wb (ix2 k q)) ?_
    refine (divf_apply _ _ (ix2 p k)).trans ?_
    refine congrArg₂ Ideal.div ?_ ?_
    · rw [shapeCast_self]
      rfl
    · refine (broadcastTo_a1_ab_apply _ _ p k).trans ?_
      rw [shapeCast_self]
      rfl
  · refine (broadcastTo_1b_ab_apply _ _ p q).trans ?_
    rw [shapeCast_self]

/-- The second layer's block at row `p`, feature `q`: the same mean through the dense map, plus the bias. -/
theorem pay1_apply (nbB hB : Vec Ideal S1000x128 .f32) (dB : Vec Ideal S1000x1 .f32) (Wb : Vec Ideal S128x128 .f32)
    (bb : Vec Ideal S1x128 .f32) (p : Fin 1000) (q : Fin 128) :
    k1_pay1 (F := Ideal) nbB hB dB Wb bb (ix2 p q)
      = (∑ k : Fin 128, Ideal.div (nbB (ix2 p k) + hB (ix2 p k)) (dB (ix2 p (0 : Fin 1)) + Cert.Sage.one) * Wb (ix2 k q))
              + bb (ix2 (0 : Fin 1) q) := by
  unfold k1_pay1
  refine (addf_apply _ _ (ix2 p q)).trans ?_
  refine congrArg₂ (· + ·) ?_ ?_
  · rw [shapeCast_self Wb]
    refine (matmul_ix2 _ Wb p q).trans ?_
    refine Finset.sum_congr rfl fun k _ => ?_
    refine congrArg (· * Wb (ix2 k q)) ?_
    refine (divf_apply _ _ (ix2 p k)).trans ?_
    refine congrArg₂ Ideal.div ?_ ?_
    · rw [shapeCast_self, shapeCast_self]
      rfl
    · refine (broadcastTo_a1_ab_apply _ _ p k).trans ?_
      rw [shapeCast_self]
      rfl
  · refine (broadcastTo_1b_ab_apply _ _ p q).trans ?_
    rw [shapeCast_self]

end Cert.KernelIdeal.Pay
end
-- ==== Proof.Region0.lean ====
/-
  From blocks to the whole array, region 0: the output array after the pipeline is the rectified dense map of the
  arrays the region finds, index by index. Each grid point `t` of 100 writes back rows `1000 t … 1000 t + 999`, all 128
  columns; the payload at row `p` of that block reads row `1000 t + p` of the node features, of the neighbour sums and of
  the degree column, and the whole weight and bias; the 100 blocks cover every row.
-/
import proofs.«409226_j2963527434976_4_alg».proof.Proof.Gen.KernelIdeal.Frame
import proofs.«409226_j2963527434976_4_alg».proof.Proof.Spec
import proofs.«409226_j2963527434976_4_alg».proof.Proof.Pay
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Region

variable (V : (c : Dev nD) → (b : Ref sig .tc) → Buf (Elt Ideal) ((c : Thread nD τ).loc b))

/-- The zero offsets of a whole-block access, as a constant function. -/
theorem zeros0 : (![0, 0] : Fin 2 → Nat) = fun _ => 0 := funext fun a => by fin_cases a <;> rfl

/-- The block indices at grid point `t`: the node features, the neighbour sums, the degrees and the output all sit at
    row block `t`, column block 0; the weight and the bias at block (0, 0) at every point. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has 100 points. -/
theorem point_lt0 (t : Fin cfg0.N) : t.val < 100 :=
  Nat.lt_of_lt_of_eq t.isLt (show cfg0.N = 100 from N_0)

/-- Row `p` of the node-feature block at point `t` is row `1000 t + p` of the array. -/
theorem own_block0 (c : Dev nD) (t : Fin cfg0.N) (p : Fin 1000) (k : Fin 128) (r : Fin 100000)
    (hr : r.val = t.val * 1000 + p.val) :
    (iblk0 V c 0 t : Vec Ideal S1000x128 .f32) (ix2 p k) = (V c main_arg0 : FVec Ideal Cert.Sage.SNx128 .f32) (ix2 r k) := by
  obtain ⟨e0, e1, -⟩ := block_index0 t
  unfold iblk0
  rw [View.read_apply]
  show V c main_arg0 _ = V c main_arg0 _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 128 + 1 * k.val = k.val; rw [e1]; omega

/-- Row `p` of the neighbour-sum block at point `t` is row `1000 t + p` of the array. -/
theorem neigh_block0 (c : Dev nD) (t : Fin cfg0.N) (p : Fin 1000) (k : Fin 128) (r : Fin 100000)
    (hr : r.val = t.val * 1000 + p.val) :
    (iblk0 V c 1 t : Vec Ideal S1000x128 .f32) (ix2 p k) = (V c main_v14 : FVec Ideal Cert.Sage.SNx128 .f32) (ix2 r k) := by
  obtain ⟨-, -, e0, e1, -⟩ := block_index0 t
  unfold iblk0
  rw [View.read_apply]
  show V c main_v14 _ = V c main_v14 _
  congr 1
  funext a
  apply Fin.ext
  match a with
  | ⟨0, _⟩ => show win0_1.index t (0 : Fin 2) * 1000 + 1 * p.val = r.val; rw [e0, hr]; omega
  | ⟨1, _⟩ => show win0_1.index t (1 : Fin 2) * 128 + 1 * k.val = k.val; rw [e1]; omega

/-- Row `p` of the degree block at point `t` is row `1000 t + p` of the degree column. -/
theorem deg_block0 (c : Dev nD) (t : Fin cfg0.N) (p : Fin 1000) (r : Fin 100000)
    (hr : r.val = t.val * 1000 + p.val) :
    (iblk0 V c 2 t : Vec Ideal S1000x1 .f32) (ix2 p (0 : Fin 1)) = V c main_v4 (ix2 r (0 : Fin 1)) := by
  obtain ⟨-, -, -, -, e0, e1, -⟩ := block_index0 t
  unfold iblk0
  rw [View.read_apply]
  show V c main_v4 _ = V c main_v4 _
  congr 1
  funext a
  apply Fin.ext
  match a with
  | ⟨0, _⟩ => show win0_2.index t (0 : Fin 2) * 1000 + 1 * p.val = r.val; rw [e0, hr]; omega
  | ⟨1, _⟩ => show win0_2.index t (1 : Fin 2) * 1 + 1 * (0 : Fin 1).val = (0 : Fin 1).val; rw [e1]; rfl

/-- The weight's block at every point is the whole weight. -/
theorem weight_block0 (c : Dev nD) (t : Fin cfg0.N) (k q : Fin 128) :
    (iblk0 V c 3 t : Vec Ideal S128x128 .f32) (ix2 k q) = (V c main_arg3 : FVec Ideal Cert.Sage.S128x128 .f32) (ix2 k q) := by
  obtain ⟨-, -, -, -, -, -, e0, e1, -⟩ := block_index0 t
  unfold iblk0
  rw [View.read_apply]
  show V c main_arg3 _ = V c main_arg3 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias's block at every point is the whole bias row. -/
theorem bias_block0 (c : Dev nD) (t : Fin cfg0.N) (q : Fin 128) :
    (iblk0 V c 4 t : Vec Ideal S1x128 .f32) (ix2 (0 : Fin 1) q) = V c main_v15 (ix2 (0 : Fin 1) q) := by
  obtain ⟨-, -, -, -, -, -, -, -, e0, e1, -⟩ := block_index0 t
  unfold iblk0
  rw [View.read_apply]
  show V c main_v15 _ = V c main_v15 _
  congr 1
  funext a
  apply Fin.ext
  match a with
  | ⟨0, _⟩ => show win0_4.index t (0 : Fin 2) * 1 + 1 * (0 : Fin 1).val = (0 : Fin 1).val; rw [e0]; rfl
  | ⟨1, _⟩ => show win0_4.index t (1 : Fin 2) * 128 + 1 * q.val = q.val; rw [e1]; omega

/-- Row `p` of the output block at point `t` is row `1000 t + p` of the output array. -/
theorem out_row0 (t : Fin cfg0.N) (p : Fin 1000) (q : Fin 128) (r : Fin 100000)
    (hr : r.val = t.val * 1000 + p.val) :
    ((cfg0.win 5).blk t).view.emb (ix2 p q) = (ix2 r q : Cert.Sage.SNx128.Idx) := by
  obtain ⟨-, -, -, -, -, -, -, -, -, -, e0, e1⟩ := block_index0 t
  funext a
  apply Fin.ext
  match a with
  | ⟨0, _⟩ => show win0_5.index t (0 : Fin 2) * 1000 + 1 * p.val = r.val; rw [e0, hr]; omega
  | ⟨1, _⟩ => show win0_5.index t (1 : Fin 2) * 128 + 1 * q.val = q.val; rw [e1]; omega

/-- The payload of blocks that are rows of the arrays is the rectified dense map at the row: the sum over the 128 input features
    is term by term the same. -/
theorem pay_row0 (h nb : FVec Ideal Cert.Sage.SNx128 .f32) (dg : Fin 100000 → EReal) (W : FVec Ideal Cert.Sage.S128x128 .f32)
    (b : Fin 128 → EReal) (nbB hB : Vec Ideal S1000x128 .f32) (dB : Vec Ideal S1000x1 .f32) (Wb : Vec Ideal S128x128 .f32)
    (bb : Vec Ideal S1x128 .f32) (p : Fin 1000) (q : Fin 128) (r : Fin 100000)
    (eh : ∀ k : Fin 128, hB (ix2 p k) = h (ix2 r k)) (en : ∀ k : Fin 128, nbB (ix2 p k) = nb (ix2 r k))
    (ed : dB (ix2 p (0 : Fin 1)) = dg r) (eW : ∀ k : Fin 128, Wb (ix2 k q) = W (ix2 k q))
    (eb : bb (ix2 (0 : Fin 1) q) = b q) :
    k0_pay1 (F := Ideal) nbB hB dB Wb bb (ix2 p q) = Cert.Sage.relu128 h nb dg W b (ix2 r q) := by
  rw [Pay.pay0_apply, Cert.Sage.relu128_ix2, ed, eb]
  refine congrArg (fun x => max (x + b q) Cert.Sage.zero) (Finset.sum_congr rfl fun k _ => ?_)
  rw [eh k, en k, eW k]
  rfl

/-- What point `t` writes back is block `t` of the rectified dense map of the arrays as the region finds them. -/
theorem block_written0 (c : Dev nD) (t : Fin cfg0.N) :
    (dat0 (F := Ideal) V c).flushed 5 t
      = ((cfg0.win 5).blk t).view.read (Elt Ideal)
          (Cert.Sage.relu128 (V c main_arg0) (V c main_v14) (fun r => V c main_v4 (ix2 r (0 : Fin 1))) (V c main_arg3)
            (fun q => V c main_v15 (ix2 (0 : Fin 1) q))) := by
  show (cfg0.win 5).cut (grid0.coords t) ((dat0 V c).after 5 t) = _
  rw [after0_5]
  unfold out0_5
  rw [View.canon_unit_zero zeros0]
  simp only [View.ld_unit_zero (S := S1000x128) zeros0, View.ld_unit_zero (S := S1000x1) zeros0,
    View.ld_unit_zero (S := S128x128) zeros0, View.ld_unit_zero (S := S1x128) zeros0]
  funext j
  obtain ⟨p, q, rfl⟩ : ∃ (p : Fin 1000) (q : Fin 128), j = ix2 p q := ⟨j 0, j 1, eq_ix2 j⟩
  have ht := point_lt0 t
  have hr : (⟨t.val * 1000 + p.val, by have := p.isLt; omega⟩ : Fin 100000).val = t.val * 1000 + p.val := rfl
  rw [View.read_apply, out_row0 t p q _ hr]
  exact pay_row0 (V c main_arg0) (V c main_v14) (fun r => V c main_v4 (ix2 r (0 : Fin 1))) (V c main_arg3)
    (fun q => V c main_v15 (ix2 (0 : Fin 1) q)) (iblk0 V c 1 t) (iblk0 V c 0 t) (iblk0 V c 2 t) (iblk0 V c 3 t) (iblk0 V c 4 t) p q _
    (fun k => own_block0 V c t p k _ hr) (fun k => neigh_block0 V c t p k _ hr)
    (deg_block0 V c t p _ hr) (fun k => weight_block0 V c t k q) (bias_block0 V c t q)

/-- An index of the output array is in point `t`'s block iff each coordinate is in the block's range on its axis. -/
theorem mem_block0 (t : Fin cfg0.N) (i : S100000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v16).slice (win0_5.rect t)).set ↔ _
  rw [View.set_slice_whole, Rect.mem_set_unit]
  exact Iff.rfl

/-- Every row of the output array is in some point's block: row `r` in block `r / 1000`. -/
theorem rows_covered0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 100 := N_0
  let t : Fin cfg0.N := ⟨(i 0).val / 1000, by rw [hN]; omega⟩
  have htv : t.val = (i 0).val / 1000 := rfl
  obtain ⟨-, -, -, -, -, -, -, -, -, -, e0, e1⟩ := block_index0 t
  refine ⟨t, flush0_5 t, ?_⟩
  rw [mem_block0]
  intro a
  match a with
  | ⟨0, _⟩ => show win0_5.index t (0 : Fin 2) * 1000 ≤ (i 0).val ∧ (i 0).val < win0_5.index t (0 : Fin 2) * 1000 + 1000; rw [e0, htv]; omega
  | ⟨1, _⟩ => show win0_5.index t (1 : Fin 2) * 128 ≤ (i 1).val ∧ (i 1).val < win0_5.index t (1 : Fin 2) * 128 + 128; rw [e1]; omega

/-- The output array after the pipeline is the rectified dense map of the arrays as the region finds them. -/
theorem final0 (c : Dev nD) :
    (dat0 (F := Ideal) V c).arrAt 5 cfg0.N
      = Cert.Sage.relu128 (V c main_arg0) (V c main_v14) (fun r => V c main_v4 (ix2 r (0 : Fin 1))) (V c main_arg3)
          (fun q => V c main_v15 (ix2 (0 : Fin 1) q)) :=
  (dat0 (F := Ideal) V c).arrAt_eq_of_cover 5 _ (fun t _ => block_written0 V c t) (rows_covered0)

end Cert.KernelIdeal.Region

end
-- ==== Proof.Region1.lean ====
/-
  From blocks to the whole array, region 1: the output array after the pipeline is the dense map of the
  arrays the region finds, index by index. Each grid point `t` of 100 writes back rows `1000 t … 1000 t + 999`, all 128
  columns; the payload at row `p` of that block reads row `1000 t + p` of the node features, of the neighbour sums and of
  the degree column, and the whole weight and bias; the 100 blocks cover every row.
-/
import proofs.«409226_j2963527434976_4_alg».proof.Proof.Gen.KernelIdeal.Frame
import proofs.«409226_j2963527434976_4_alg».proof.Proof.Spec
import proofs.«409226_j2963527434976_4_alg».proof.Proof.Pay
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Region

variable (V : (c : Dev nD) → (b : Ref sig .tc) → Buf (Elt Ideal) ((c : Thread nD τ).loc b))

/-- The zero offsets of a whole-block access, as a constant function. -/
theorem zeros1 : (![0, 0] : Fin 2 → Nat) = fun _ => 0 := funext fun a => by fin_cases a <;> rfl

/-- The block indices at grid point `t`: the node features, the neighbour sums, the degrees and the output all sit at
    row block `t`, column block 0; the weight and the bias at block (0, 0) at every point. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 100 points. -/
theorem point_lt1 (t : Fin cfg1.N) : t.val < 100 :=
  Nat.lt_of_lt_of_eq t.isLt (show cfg1.N = 100 from N_1)

/-- Row `p` of the node-feature block at point `t` is row `1000 t + p` of the array. -/
theorem own_block1 (c : Dev nD) (t : Fin cfg1.N) (p : Fin 1000) (k : Fin 128) (r : Fin 100000)
    (hr : r.val = t.val * 1000 + p.val) :
    (iblk1 V c 0 t : Vec Ideal S1000x128 .f32) (ix2 p k) = (V c main_v16 : FVec Ideal Cert.Sage.SNx128 .f32) (ix2 r k) := by
  obtain ⟨e0, e1, -⟩ := block_index1 t
  unfold iblk1
  rw [View.read_apply]
  show V c main_v16 _ = V c main_v16 _
  congr 1
  funext a
  apply Fin.ext
  match a with
  | ⟨0, _⟩ => show win1_0.index t (0 : Fin 2) * 1000 + 1 * p.val = r.val; rw [e0, hr]; omega
  | ⟨1, _⟩ => show win1_0.index t (1 : Fin 2) * 128 + 1 * k.val = k.val; rw [e1]; omega

/-- Row `p` of the neighbour-sum block at point `t` is row `1000 t + p` of the array. -/
theorem neigh_block1 (c : Dev nD) (t : Fin cfg1.N) (p : Fin 1000) (k : Fin 128) (r : Fin 100000)
    (hr : r.val = t.val * 1000 + p.val) :
    (iblk1 V c 1 t : Vec Ideal S1000x128 .f32) (ix2 p k) = (V c main_v32 : FVec Ideal Cert.Sage.SNx128 .f32) (ix2 r k) := by
  obtain ⟨-, -, e0, e1, -⟩ := block_index1 t
  unfold iblk1
  rw [View.read_apply]
  show V c main_v32 _ = V c main_v32 _
  congr 1
  funext a
  apply Fin.ext
  match a with
  | ⟨0, _⟩ => show win1_1.index t (0 : Fin 2) * 1000 + 1 * p.val = r.val; rw [e0, hr]; omega
  | ⟨1, _⟩ => show win1_1.index t (1 : Fin 2) * 128 + 1 * k.val = k.val; rw [e1]; omega

/-- Row `p` of the degree block at point `t` is row `1000 t + p` of the degree column. -/
theorem deg_block1 (c : Dev nD) (t : Fin cfg1.N) (p : Fin 1000) (r : Fin 100000)
    (hr : r.val = t.val * 1000 + p.val) :
    (iblk1 V c 2 t : Vec Ideal S1000x1 .f32) (ix2 p (0 : Fin 1)) = V c main_v4 (ix2 r (0 : Fin 1)) := by
  obtain ⟨-, -, -, -, e0, e1, -⟩ := block_index1 t
  unfold iblk1
  rw [View.read_apply]
  show V c main_v4 _ = V c main_v4 _
  congr 1
  funext a
  apply Fin.ext
  match a with
  | ⟨0, _⟩ => show win1_2.index t (0 : Fin 2) * 1000 + 1 * p.val = r.val; rw [e0, hr]; omega
  | ⟨1, _⟩ => show win1_2.index t (1 : Fin 2) * 1 + 1 * (0 : Fin 1).val = (0 : Fin 1).val; rw [e1]; rfl

/-- The weight's block at every point is the whole weight. -/
theorem weight_block1 (c : Dev nD) (t : Fin cfg1.N) (k q : Fin 128) :
    (iblk1 V c 3 t : Vec Ideal S128x128 .f32) (ix2 k q) = (V c main_v19 : FVec Ideal Cert.Sage.S128x128 .f32) (ix2 k q) := by
  obtain ⟨-, -, -, -, -, -, e0, e1, -⟩ := block_index1 t
  unfold iblk1
  rw [View.read_apply]
  show V c main_v19 _ = V c main_v19 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias's block at every point is the whole bias row. -/
theorem bias_block1 (c : Dev nD) (t : Fin cfg1.N) (q : Fin 128) :
    (iblk1 V c 4 t : Vec Ideal S1x128 .f32) (ix2 (0 : Fin 1) q) = V c main_v33 (ix2 (0 : Fin 1) q) := by
  obtain ⟨-, -, -, -, -, -, -, -, e0, e1, -⟩ := block_index1 t
  unfold iblk1
  rw [View.read_apply]
  show V c main_v33 _ = V c main_v33 _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * q.val = q.val; rw [e1]; omega

/-- Row `p` of the output block at point `t` is row `1000 t + p` of the output array. -/
theorem out_row1 (t : Fin cfg1.N) (p : Fin 1000) (q : Fin 128) (r : Fin 100000)
    (hr : r.val = t.val * 1000 + p.val) :
    ((cfg1.win 5).blk t).view.emb (ix2 p q) = (ix2 r q : Cert.Sage.SNx128.Idx) := by
  obtain ⟨-, -, -, -, -, -, -, -, -, -, e0, e1⟩ := block_index1 t
  funext a
  apply Fin.ext
  match a with
  | ⟨0, _⟩ => show win1_5.index t (0 : Fin 2) * 1000 + 1 * p.val = r.val; rw [e0, hr]; omega
  | ⟨1, _⟩ => show win1_5.index t (1 : Fin 2) * 128 + 1 * q.val = q.val; rw [e1]; omega

/-- The payload of blocks that are rows of the arrays is the dense map at the row: the sum over the 128 input features
    is term by term the same. -/
theorem pay_row1 (h nb : FVec Ideal Cert.Sage.SNx128 .f32) (dg : Fin 100000 → EReal) (W : FVec Ideal Cert.Sage.S128x128 .f32)
    (b : Fin 128 → EReal) (nbB hB : Vec Ideal S1000x128 .f32) (dB : Vec Ideal S1000x1 .f32) (Wb : Vec Ideal S128x128 .f32)
    (bb : Vec Ideal S1x128 .f32) (p : Fin 1000) (q : Fin 128) (r : Fin 100000)
    (eh : ∀ k : Fin 128, hB (ix2 p k) = h (ix2 r k)) (en : ∀ k : Fin 128, nbB (ix2 p k) = nb (ix2 r k))
    (ed : dB (ix2 p (0 : Fin 1)) = dg r) (eW : ∀ k : Fin 128, Wb (ix2 k q) = W (ix2 k q))
    (eb : bb (ix2 (0 : Fin 1) q) = b q) :
    k1_pay1 (F := Ideal) nbB hB dB Wb bb (ix2 p q) = Cert.Sage.lin128 h nb dg W b (ix2 r q) := by
  rw [Pay.pay1_apply, Cert.Sage.lin128_ix2, ed, eb]
  refine congrArg (fun x => x + b q) (Finset.sum_congr rfl fun k _ => ?_)
  rw [eh k, en k, eW k]
  rfl

/-- What point `t` writes back is block `t` of the dense map of the arrays as the region finds them. -/
theorem block_written1 (c : Dev nD) (t : Fin cfg1.N) :
    (dat1 (F := Ideal) V c).flushed 5 t
      = ((cfg1.win 5).blk t).view.read (Elt Ideal)
          (Cert.Sage.lin128 (V c main_v16) (V c main_v32) (fun r => V c main_v4 (ix2 r (0 : Fin 1))) (V c main_v19)
            (fun q => V c main_v33 (ix2 (0 : Fin 1) q))) := by
  show (cfg1.win 5).cut (grid1.coords t) ((dat1 V c).after 5 t) = _
  rw [after1_5]
  unfold out1_5
  rw [View.canon_unit_zero zeros1]
  simp only [View.ld_unit_zero (S := S1000x128) zeros1, View.ld_unit_zero (S := S1000x1) zeros1,
    View.ld_unit_zero (S := S128x128) zeros1, View.ld_unit_zero (S := S1x128) zeros1]
  funext j
  obtain ⟨p, q, rfl⟩ : ∃ (p : Fin 1000) (q : Fin 128), j = ix2 p q := ⟨j 0, j 1, eq_ix2 j⟩
  have ht := point_lt1 t
  have hr : (⟨t.val * 1000 + p.val, by have := p.isLt; omega⟩ : Fin 100000).val = t.val * 1000 + p.val := rfl
  rw [View.read_apply, out_row1 t p q _ hr]
  exact pay_row1 (V c main_v16) (V c main_v32) (fun r => V c main_v4 (ix2 r (0 : Fin 1))) (V c main_v19)
    (fun q => V c main_v33 (ix2 (0 : Fin 1) q)) (iblk1 V c 1 t) (iblk1 V c 0 t) (iblk1 V c 2 t) (iblk1 V c 3 t) (iblk1 V c 4 t) p q _
    (fun k => own_block1 V c t p k _ hr) (fun k => neigh_block1 V c t p k _ hr)
    (deg_block1 V c t p _ hr) (fun k => weight_block1 V c t k q) (bias_block1 V c t q)

/-- An index of the output array is in point `t`'s block iff each coordinate is in the block's range on its axis. -/
theorem mem_block1 (t : Fin cfg1.N) (i : S100000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v34).slice (win1_5.rect t)).set ↔ _
  rw [View.set_slice_whole, Rect.mem_set_unit]
  exact Iff.rfl

/-- Every row of the output array is in some point's block: row `r` in block `r / 1000`. -/
theorem rows_covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 100 := N_1
  let t : Fin cfg1.N := ⟨(i 0).val / 1000, by rw [hN]; omega⟩
  have htv : t.val = (i 0).val / 1000 := rfl
  obtain ⟨-, -, -, -, -, -, -, -, -, -, e0, e1⟩ := block_index1 t
  refine ⟨t, flush1_5 t, ?_⟩
  rw [mem_block1]
  intro a
  match a with
  | ⟨0, _⟩ => show win1_5.index t (0 : Fin 2) * 1000 ≤ (i 0).val ∧ (i 0).val < win1_5.index t (0 : Fin 2) * 1000 + 1000; rw [e0, htv]; omega
  | ⟨1, _⟩ => show win1_5.index t (1 : Fin 2) * 128 ≤ (i 1).val ∧ (i 1).val < win1_5.index t (1 : Fin 2) * 128 + 128; rw [e1]; omega

/-- The output array after the pipeline is the dense map of the arrays as the region finds them. -/
theorem final1 (c : Dev nD) :
    (dat1 (F := Ideal) V c).arrAt 5 cfg1.N
      = Cert.Sage.lin128 (V c main_v16) (V c main_v32) (fun r => V c main_v4 (ix2 r (0 : Fin 1))) (V c main_v19)
          (fun q => V c main_v33 (ix2 (0 : Fin 1) q)) :=
  (dat1 (F := Ideal) V c).arrAt_eq_of_cover 5 _ (fun t _ => block_written1 V c t) (rows_covered1)

end Cert.KernelIdeal.Region

end
-- ==== Proof.Fold.lean ====
/-
  The idealized kernel's two results as functions of its arguments.

  The program is five segments: host operations, the first pallas_call, host operations, the second pallas_call, one
  host operation. Reading the contents of the two result buffers at the end back through the segments:
  the first result is what the first call's output window ends holding, which is layer 1 of the specification over the
  arguments, the edge sums of the first host segment, the degree column and the bias row;
  the second result is the first 40 columns of what the second call's output window ends holding, which is the dense
  map of the specification over the first result, its edge sums, the same degree column, and the second layer's weight
  and bias padded to 128 columns.
-/
import proofs.«409226_j2963527434976_4_alg».proof.Proof.Gen.KernelIdeal.Frame
import proofs.«409226_j2963527434976_4_alg».proof.Proof.KHost
import proofs.«409226_j2963527434976_4_alg».proof.Proof.Region0
import proofs.«409226_j2963527434976_4_alg».proof.Proof.Region1
import proofs.«409226_j2963527434976_4_alg».proof.Proof.Spec

set_option maxRecDepth 16384

noncomputable section

namespace Cert.KernelIdeal.Fold

open Cert.KernelIdeal Cert.KernelIdeal.Gen Cert.KernelIdeal.Host
open Idealize.ShloMosaic Idealize.ShloMosaic.TcCoe Idealize.ShloMosaic.ValueIdx Idealize.SL.Sem Idealize.ShloMosaic.StableHlo

/-- Node `r`'s degree, read in the [N, 1] column the kernel's program keeps it in. -/
abbrev degCol (x2 : IVec S1000000 32) : Fin 100000 → EReal :=
  fun r => shapeCast S100000x1 (degK (F := Ideal) x2) shapeCasts_S100000_S100000x1 (ix2 r (0 : Fin 1))

/-- Feature `q`'s bias, read in the [1, 128] row the kernel's program keeps it in. -/
abbrev biasRow (b : FVec Ideal S128 .f32) : Fin 128 → EReal :=
  fun q => shapeCast S1x128 b shapeCasts_S128_S1x128 (ix2 (0 : Fin 1) q)

/-- The first result: layer 1. -/
def h1 (x0 : FVec Ideal S100000x128 .f32) (x1 x2 : IVec S1000000 32) (x3 : FVec Ideal S128x128 .f32)
    (x4 : FVec Ideal S128 .f32) : FVec Ideal S100000x128 .f32 :=
  Cert.Sage.relu128 x0 (neighK x0 x1 x2) (degCol x2) x3 (biasRow x4)

/-- The second call's whole output: the dense map over the first result, 128 columns wide. -/
def h2wide (x0 : FVec Ideal S100000x128 .f32) (x1 x2 : IVec S1000000 32) (x3 : FVec Ideal S128x128 .f32)
    (x4 : FVec Ideal S128 .f32) (x5 : FVec Ideal S128x40 .f32) (x6 : FVec Ideal S40 .f32) : FVec Ideal S100000x128 .f32 :=
  Cert.Sage.lin128 (h1 x0 x1 x2 x3 x4) (neighK (h1 x0 x1 x2 x3 x4) x1 x2) (degCol x2) (padW x5) (biasRow (padB x6))

variable (m : (ℓ : Loc nD τ sig) → Buf (Elt Ideal) ℓ) (ρ : Dev nD → PrngReg)

/-! ## After the first call -/

theorem W2_arg1 (c : Dev nD) : W2 m ρ c (Proc.devRef .tc main_arg1) = m ((c.tc : Thread nD τ).loc main_arg1) :=
  (W2_of_ne m ρ c main_arg1 (by decide)).trans ((ops0_arg1 (W0 m ρ c)).trans rfl)
theorem W2_arg2 (c : Dev nD) : W2 m ρ c (Proc.devRef .tc main_arg2) = m ((c.tc : Thread nD τ).loc main_arg2) :=
  (W2_of_ne m ρ c main_arg2 (by decide)).trans ((ops0_arg2 (W0 m ρ c)).trans rfl)
theorem W2_arg5 (c : Dev nD) : W2 m ρ c (Proc.devRef .tc main_arg5) = m ((c.tc : Thread nD τ).loc main_arg5) :=
  (W2_of_ne m ρ c main_arg5 (by decide)).trans ((ops0_arg5 (W0 m ρ c)).trans rfl)
theorem W2_arg6 (c : Dev nD) : W2 m ρ c (Proc.devRef .tc main_arg6) = m ((c.tc : Thread nD τ).loc main_arg6) :=
  (W2_of_ne m ρ c main_arg6 (by decide)).trans ((ops0_arg6 (W0 m ρ c)).trans rfl)

theorem W2_v4 (c : Dev nD) : W2 m ρ c (Proc.devRef .tc main_v4)
    = shapeCast S100000x1 (degK (F := Ideal) (m ((c.tc : Thread nD τ).loc main_arg2))) shapeCasts_S100000_S100000x1 :=
  (W2_arr m ρ c 2).trans (((dat0 (V1 m ρ) c).arrAt_in 2 rfl _).trans ((A_eq0 (V1 m ρ) c 2).trans
    ((ops0_v4 (W0 m ρ c)).trans rfl)))

theorem W2_v16 (c : Dev nD) : W2 m ρ c (Proc.devRef .tc main_v16) = h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  calc W2 m ρ c (Proc.devRef .tc main_v16)
    _ = (dat0 (V1 m ρ) c).arrAt 5 cfg0.N := W2_arr m ρ c 5
    _ = Cert.Sage.relu128 (V1 m ρ c main_arg0) (V1 m ρ c main_v14) (fun r => V1 m ρ c main_v4 (ix2 r (0 : Fin 1)))
          (V1 m ρ c main_arg3) (fun q => V1 m ρ c main_v15 (ix2 (0 : Fin 1) q)) := Region.final0 (V1 m ρ) c
    _ = h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
        dsimp only [V1, W1]
        rw [ops0_arg0 (W0 m ρ c), ops0_v14 (W0 m ρ c), ops0_v4 (W0 m ρ c), ops0_arg3 (W0 m ρ c), ops0_v15 (W0 m ρ c)]
        rfl

/-! ## After the second call -/

theorem W4_v34 (c : Dev nD) : W4 m ρ c (Proc.devRef .tc main_v34) = h2wide (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  calc W4 m ρ c (Proc.devRef .tc main_v34)
    _ = (dat1 (V3 m ρ) c).arrAt 5 cfg1.N := W4_arr m ρ c 5
    _ = Cert.Sage.lin128 (V3 m ρ c main_v16) (V3 m ρ c main_v32) (fun r => V3 m ρ c main_v4 (ix2 r (0 : Fin 1)))
          (V3 m ρ c main_v19) (fun q => V3 m ρ c main_v33 (ix2 (0 : Fin 1) q)) := Region.final1 (V3 m ρ) c
    _ = h2wide (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
        dsimp only [V3, W3]
        rw [ops1_v16 (W2 m ρ c), ops1_v32 (W2 m ρ c), ops1_v4 (W2 m ρ c), ops1_v19 (W2 m ρ c), ops1_v33 (W2 m ρ c)]
        rw [W2_v16 m ρ c, W2_arg1 m ρ c, W2_arg2 m ρ c, W2_v4 m ρ c, W2_arg5 m ρ c, W2_arg6 m ρ c]
        rfl

/-! ## At the end -/

/-- The first result's buffer ends holding layer 1. -/
theorem W5_v16 (c : Dev nD) : W5 m ρ c (Proc.devRef .tc main_v16) = h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  calc W5 m ρ c (Proc.devRef .tc main_v16)
    _ = W4 m ρ c (Proc.devRef .tc main_v16) := ops2_v16 (W4 m ρ c)
    _ = (dat1 (V3 m ρ) c).arrAt 0 cfg1.N := W4_arr m ρ c 0
    _ = (dat1 (V3 m ρ) c).A 0 := (dat1 (V3 m ρ) c).arrAt_in 0 rfl _
    _ = V3 m ρ c main_v16 := A_eq1 (V3 m ρ) c 0
    _ = W2 m ρ c (Proc.devRef .tc main_v16) := ops1_v16 (W2 m ρ c)
    _ = h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := W2_v16 m ρ c

/-- The second result's buffer ends holding the first 40 columns of the second call's output. -/
theorem W5_v35 (c : Dev nD) : W5 m ρ c (Proc.devRef .tc main_v35)
    = extractStridedSlice S100000x40 ![0, 0] (h2wide (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) slices_S100000x128_S100000x40_0_0 :=
  (ops2_v35 (W4 m ρ c)).trans
    (congrArg (fun z : FVec Ideal S100000x128 .f32 => extractStridedSlice S100000x40 ![0, 0] z slices_S100000x128_S100000x40_0_0)
      (W4_v34 m ρ c))

end Cert.KernelIdeal.Fold

end
-- ==== Proof.LibScatter.lean ====
/-
  A scatter whose rule keeps the update (a "set"), read at a position where an update lands.

  The scatter writes its updates one after the other. Suppose every update position `j` lands inside the operand,
  at `e j`, and `e` is an injection. Then position `e j` is written exactly once, by update `j`: the updates
  before it leave something there that update `j` replaces, and no update after it lands there again. So the
  result holds `upd j` at `e j`, whatever the operand held.
-/
import Idealize.ShloMosaic.PureOps.ShapeOps

namespace Cert.LibScatter

open Idealize.ShloMosaic

/-- One step of the scatter with the landing position substituted: write `v` at `p`, keep the rest. -/
def put {ι α : Type} [DecidableEq ι] (r : ι → α) (p : ι) (v : α) : ι → α := fun i' => if i' = p then v else r i'

theorem put_same {ι α : Type} [DecidableEq ι] (r : ι → α) (p : ι) (v : α) : put r p v p = v := if_pos rfl
theorem put_other {ι α : Type} [DecidableEq ι] (r : ι → α) (p : ι) (v : α) (i : ι) (h : i ≠ p) : put r p v i = r i := if_neg h

/-- Writing a list of (position, value) pairs none of which is at `i` leaves `i` as it was. -/
theorem foldl_put_untouched {ι α κ : Type} [DecidableEq ι] (pos : κ → ι) (val : κ → α) (i : ι) :
    ∀ (l : List κ) (r : ι → α), (∀ n ∈ l, pos n ≠ i) → (l.foldl (fun r n => put r (pos n) (val n)) r) i = r i := by
  intro l
  induction l with
  | nil => intro r _; rfl
  | cons n l ih =>
    intro r h
    rw [List.foldl_cons, ih _ (fun k hk => h k (List.mem_cons_of_mem _ hk))]
    exact put_other _ _ _ _ (fun e => h n List.mem_cons_self e.symm)

/-- Writing a duplicate-free list of pairs, exactly one of which (`n₀`) is at `i`, leaves `n₀`'s value at `i`. -/
theorem foldl_put_landed {ι α κ : Type} [DecidableEq ι] (pos : κ → ι) (val : κ → α) (n₀ : κ)
    (hinj : ∀ n, pos n = pos n₀ → n = n₀) :
    ∀ (l : List κ) (r : ι → α), l.Nodup → n₀ ∈ l → (l.foldl (fun r n => put r (pos n) (val n)) r) (pos n₀) = val n₀ := by
  intro l
  induction l with
  | nil => intro r _ h; exact absurd h List.not_mem_nil
  | cons n l ih =>
    intro r hnd hmem
    rw [List.foldl_cons]
    rcases List.mem_cons.mp hmem with h | h
    · subst h
      rw [foldl_put_untouched pos val (pos n₀) l _ (fun k hk e => (List.nodup_cons.mp hnd).1 (hinj k e ▸ hk))]
      exact put_same _ _ _
    · exact ih _ (List.nodup_cons.mp hnd).2 h

/-- Two step functions that agree give the same fold. -/
theorem foldl_congr {β κ : Type} (f g : β → κ → β) (hfg : ∀ r n, f r n = g r n) :
    ∀ (l : List κ) (r : β), l.foldl f r = l.foldl g r := by
  intro l
  induction l with
  | nil => intro r; rfl
  | cons n l ih => intro r; rw [List.foldl_cons, List.foldl_cons, hfg, ih]

/-- The scatter that sets, read where update `j` lands. -/
theorem scatter_set_landed {s si u : Shape} {w : Nat} {α : Type} (d : ScatterDims s si u) (x : s.Idx → α)
    (idx : IVec si w) (upd : u.Idx → α) (e : u.Idx → s.Idx) (he : Function.Injective e)
    (hr : ∀ j, d.resultIdx? j idx = some (e j)) (j : u.Idx) :
    Host.scatter d (fun _ b => b) x idx upd (e j) = upd j := by
  unfold Host.scatter
  have h := foldl_put_landed (fun n : Fin u.numel => e (u.rowMajor.symm n)) (fun n => upd (u.rowMajor.symm n)) (u.rowMajor j)
    (fun n hn => by
      have := he hn
      rw [Equiv.symm_apply_apply] at this
      exact (Equiv.symm_apply_eq _).mp this)
    (List.finRange u.numel) x (List.nodup_finRange _) (List.mem_finRange _)
  simp only [Equiv.symm_apply_apply] at h
  refine (congrFun (foldl_congr _ (fun r n => put r (e (u.rowMajor.symm n)) (upd (u.rowMajor.symm n))) (fun r n => ?_) _ x) (e j)).trans h
  rw [hr]
  rfl

end Cert.LibScatter
-- ==== Proof.Pad.lean ====
/-
  The second layer's padded weight and bias, read where the padding put the originals.

  The 128 × 40 weight is written into a zero 128 × 128 matrix at column 0, and the 40-long bias into a zero 128-long
  vector at entry 0. Every entry of the weight lands at its own coordinates, two entries never at the same place, so
  the padded matrix holds the weight's entry (k, q) at (k, q) for q < 40, and likewise the padded vector the bias's
  entry q at q.
-/
import proofs.«409226_j2963527434976_4_alg».proof.Proof.Gen.KernelIdeal
import proofs.«409226_j2963527434976_4_alg».proof.Proof.LibScatter
import Idealize.ShloMosaic.Lib.ValueIdx

noncomputable section

namespace Cert.KernelIdeal.Pad

open Cert.KernelIdeal Cert.KernelIdeal.Gen Idealize.ShloMosaic Idealize.ShloMosaic.ValueIdx

/-! ## The weight -/

/-- An index of the 128 × 40 weight as an index of the 128 × 128 matrix: the same coordinates. -/
def embW (j : S128x40.Idx) : S128x128.Idx := fun a =>
  match a with
  | ⟨0, _⟩ => ⟨(j 0).val, (j 0).isLt⟩
  | ⟨1, _⟩ => ⟨(j 1).val, Nat.lt_of_lt_of_le (j 1).isLt (by decide : 40 ≤ 128)⟩

theorem startW (idx : IVec S1 32) (hidx : ∀ i, idx i = 0#32) (j : S128x40.Idx) (a : Fin 2) :
    scatter_S128x128_S1_S128x40_01_n_1_0.start j idx a = 0 := by
  fin_cases a
  · rfl
  · unfold ScatterDims.start
    rw [dif_pos (by decide)]
    rw [hidx]
    rfl

theorem windowW (j : S128x40.Idx) (a : Fin 2) :
    scatter_S128x128_S1_S128x40_01_n_1_0.window j a = (j a).val := by
  match a with
  | ⟨0, _⟩ => rfl
  | ⟨1, _⟩ => rfl

theorem embW_inj : Function.Injective embW := by
  intro j j' h
  funext a
  fin_cases a
  · have h0 : (embW j 0).val = (embW j' 0).val := congrArg Fin.val (congrFun h (0 : Fin 2))
    exact Fin.ext h0
  · have h1 : (embW j 1).val = (embW j' 1).val := congrArg Fin.val (congrFun h (1 : Fin 2))
    exact Fin.ext h1

theorem landW (idx : IVec S1 32) (hidx : ∀ i, idx i = 0#32) (j : S128x40.Idx) :
    scatter_S128x128_S1_S128x40_01_n_1_0.resultIdx? j idx = some (embW j) := by
  unfold ScatterDims.resultIdx?
  have h : ∀ a, 0 ≤ scatter_S128x128_S1_S128x40_01_n_1_0.start j idx a + scatter_S128x128_S1_S128x40_01_n_1_0.window j a
      ∧ scatter_S128x128_S1_S128x40_01_n_1_0.start j idx a + scatter_S128x128_S1_S128x40_01_n_1_0.window j a < S128x128.size a := by
    intro a
    rw [startW idx hidx, windowW]
    have hb : (j a).val < S128x128.size a := by
      fin_cases a
      · exact (j 0).isLt
      · exact Nat.lt_of_lt_of_le (j 1).isLt (by decide : 40 ≤ 128)
    constructor <;> omega
  rw [dif_pos h]
  congr 1
  funext a
  apply Fin.ext
  show (scatter_S128x128_S1_S128x40_01_n_1_0.start j idx a + scatter_S128x128_S1_S128x40_01_n_1_0.window j a).toNat = (embW j a).val
  rw [startW idx hidx, windowW]
  fin_cases a <;> simp [embW]

/-- The padded weight at (k, q), q < 40, is the weight at (k, q): whatever the matrix held before, for any index
    vector that reads 0. -/
theorem scatW_apply {α : Type} (x : S128x128.Idx → α) (idx : IVec S1 32) (hidx : ∀ i, idx i = 0#32)
    (w : S128x40.Idx → α) (k : Fin 128) (q : Fin 40) :
    Host.scatter scatter_S128x128_S1_S128x40_01_n_1_0 (fun _ b => b) x idx w (ix2 k (q.castLE (by decide))) = w (ix2 k q) := by
  have e : (ix2 k (q.castLE (by decide : 40 ≤ 128)) : S128x128.Idx) = embW (ix2 k q) := by
    funext a
    fin_cases a <;> rfl
  rw [e]
  exact Cert.LibScatter.scatter_set_landed _ x idx w embW embW_inj (landW idx hidx) (ix2 k q)

/-! ## The bias -/

/-- An index of the 40-long bias as an index of the 128-long vector: the same coordinate. -/
def embB (j : S40.Idx) : S128.Idx := fun a =>
  match a with
  | ⟨0, _⟩ => ⟨(j 0).val, Nat.lt_of_lt_of_le (j 0).isLt (by decide : 40 ≤ 128)⟩

theorem startB (idx : IVec S1 32) (hidx : ∀ i, idx i = 0#32) (j : S40.Idx) (a : Fin 1) :
    scatter_S128_S1_S40_0_n_0_0.start j idx a = 0 := by
  fin_cases a
  unfold ScatterDims.start
  rw [dif_pos (by decide)]
  rw [hidx]
  rfl

theorem windowB (j : S40.Idx) (a : Fin 1) : scatter_S128_S1_S40_0_n_0_0.window j a = (j a).val := by
  fin_cases a
  rfl

theorem embB_inj : Function.Injective embB := by
  intro j j' h
  funext a
  fin_cases a
  have h0 : (embB j 0).val = (embB j' 0).val := congrArg Fin.val (congrFun h (0 : Fin 1))
  exact Fin.ext h0

theorem landB (idx : IVec S1 32) (hidx : ∀ i, idx i = 0#32) (j : S40.Idx) :
    scatter_S128_S1_S40_0_n_0_0.resultIdx? j idx = some (embB j) := by
  unfold ScatterDims.resultIdx?
  have h : ∀ a, 0 ≤ scatter_S128_S1_S40_0_n_0_0.start j idx a + scatter_S128_S1_S40_0_n_0_0.window j a
      ∧ scatter_S128_S1_S40_0_n_0_0.start j idx a + scatter_S128_S1_S40_0_n_0_0.window j a < S128.size a := by
    intro a
    rw [startB idx hidx, windowB]
    have hb : (j a).val < S128.size a := by
      fin_cases a
      exact Nat.lt_of_lt_of_le (j 0).isLt (by decide : 40 ≤ 128)
    constructor <;> omega
  rw [dif_pos h]
  congr 1
  funext a
  apply Fin.ext
  show (scatter_S128_S1_S40_0_n_0_0.start j idx a + scatter_S128_S1_S40_0_n_0_0.window j a).toNat = (embB j a).val
  rw [startB idx hidx, windowB]
  fin_cases a <;> simp [embB]

/-- The padded bias at q < 40 is the bias at q. -/
theorem scatB_apply {α : Type} (x : S128.Idx → α) (idx : IVec S1 32) (hidx : ∀ i, idx i = 0#32)
    (b : S40.Idx → α) (q : Fin 40) :
    Host.scatter scatter_S128_S1_S40_0_n_0_0 (fun _ b => b) x idx b (ix1 (q.castLE (by decide))) = b (ix1 q) := by
  have e : (ix1 (q.castLE (by decide : 40 ≤ 128)) : S128.Idx) = embB (ix1 q) := by
    funext a
    fin_cases a
    rfl
  rw [e]
  exact Cert.LibScatter.scatter_set_landed _ x idx b embB embB_inj (landB idx hidx) (ix1 q)

end Cert.KernelIdeal.Pad

end
-- ==== Proof.RefValue.lean ====
/-
  The reference program read as the specification.

  Each of its two results is one GraphSAGE layer with the "gcn" aggregator: at node `r` and output feature `q`,
    (∑ k < 128, ((neigh r k + h r k) / (deg r + 1)) · W k q) + b q,
  rectified for the first layer. The edge sums `neigh` (per layer) and `deg` are the reference's own scatter-adds and
  stay closed; everything after them is pointwise, a broadcast, or the contraction over `k`, and is read index by
  index: the degree of shape [N] reaches the quotient through [N,1] and [N,128], the bias of shape [D] through [1,D]
  and [N,D], and each composed index map is the evident coordinate projection.
-/
import proofs.«409226_j2963527434976_4_alg».proof.Proof.Gen.ReferenceIdeal.Run
import proofs.«409226_j2963527434976_4_alg».proof.Proof.Gen.ReferenceIdeal.Read
import proofs.«409226_j2963527434976_4_alg».proof.Proof.Spec
import Idealize.ShloMosaic.PureOps.Ideal
import Idealize.ShloMosaic.Lib.ValueIdx

noncomputable section

namespace Cert.ReferenceIdeal.RefValue

open Cert.ReferenceIdeal Cert.ReferenceIdeal.Read Idealize.ShloMosaic Idealize.ShloMosaic.ValueIdx

/-! ## The composed index maps are coordinate projections -/

/-- The contraction reads the left operand at row `r`, column `k`. -/
theorem lidx20 (r : Fin 100000) (q k : Fin 128) : lidx_main_v20 (ix2 r q) k = ix2 r k :=
  funext fun a => Fin.ext (by match a with | ⟨0, _⟩ => rfl | ⟨1, _⟩ => rfl)
/-- The contraction reads the weight at row `k`, column `q`. -/
theorem ridx20 (r : Fin 100000) (q k : Fin 128) : ridx_main_v20 (ix2 r q) k = ix2 k q :=
  funext fun a => Fin.ext (by match a with | ⟨0, _⟩ => rfl | ⟨1, _⟩ => rfl)
/-- The divisor at (r, k) is the column entry of row `r`. -/
theorem idx18 (r : Fin 100000) (k : Fin 128) : idx_main_v18 (ix2 r k) = ix2 r (0 : Fin 1) :=
  funext fun a => Fin.ext (by match a with | ⟨0, _⟩ => rfl | ⟨1, _⟩ => rfl)
/-- The column entry of row `r` is the degree of node `r`. -/
theorem idx15 (r : Fin 100000) : idx_main_v15 (ix2 r (0 : Fin 1)) = ix1 r :=
  funext fun a => Fin.ext (by match a with | ⟨0, _⟩ => rfl)
/-- The bias at (r, q) is the row entry of feature `q`. -/
theorem idx22 (r : Fin 100000) (q : Fin 128) : idx_main_v22 (ix2 r q) = ix2 (0 : Fin 1) q :=
  funext fun a => Fin.ext (by match a with | ⟨0, _⟩ => rfl | ⟨1, _⟩ => rfl)
/-- The row entry of feature `q` is the bias of feature `q`. -/
theorem idx21 (q : Fin 128) : idx_main_v21 (ix2 (0 : Fin 1) q) = ix1 q :=
  funext fun a => Fin.ext (by match a with | ⟨0, _⟩ => rfl)

theorem lidx41 (r : Fin 100000) (q : Fin 40) (k : Fin 128) : lidx_main_v41 (ix2 r q) k = ix2 r k :=
  funext fun a => Fin.ext (by match a with | ⟨0, _⟩ => rfl | ⟨1, _⟩ => rfl)
theorem ridx41 (r : Fin 100000) (q : Fin 40) (k : Fin 128) : ridx_main_v41 (ix2 r q) k = ix2 k q :=
  funext fun a => Fin.ext (by match a with | ⟨0, _⟩ => rfl | ⟨1, _⟩ => rfl)
theorem idx39 (r : Fin 100000) (k : Fin 128) : idx_main_v39 (ix2 r k) = ix2 r (0 : Fin 1) :=
  funext fun a => Fin.ext (by match a with | ⟨0, _⟩ => rfl | ⟨1, _⟩ => rfl)
theorem idx36 (r : Fin 100000) : idx_main_v36 (ix2 r (0 : Fin 1)) = ix1 r :=
  funext fun a => Fin.ext (by match a with | ⟨0, _⟩ => rfl)
theorem idx43 (r : Fin 100000) (q : Fin 40) : idx_main_v43 (ix2 r q) = ix2 (0 : Fin 1) q :=
  funext fun a => Fin.ext (by match a with | ⟨0, _⟩ => rfl | ⟨1, _⟩ => rfl)
theorem idx42 (q : Fin 40) : idx_main_v42 (ix2 (0 : Fin 1) q) = ix1 q :=
  funext fun a => Fin.ext (by match a with | ⟨0, _⟩ => rfl)

/-! ## The aggregate each contraction reads -/

/-- The aggregate the first contraction reads at node `r`, feature `k`: the neighbours' sum plus the node's own
    feature, over the degree plus one. -/
theorem v19_at (x0 : (⟨S100000x128, .f32⟩ : BufTy).Contents (Elt Ideal)) (x1 x2 : (⟨S1000000, .i32⟩ : BufTy).Contents (Elt Ideal))
    (r : Fin 100000) (k : Fin 128) :
    val_main_v19 (F := Ideal) x0 x1 x2 (ix2 r k)
      = Cert.Sage.agg x0 (val_main_v13 (F := Ideal) x0 x1 x2) (fun r => val_main_v3 (F := Ideal) x2 (ix1 r)) r k := by
  rw [val_main_v19_apply, val_main_v14_apply, val_main_v18_apply, idx18, val_main_v17_apply, val_main_v15_apply, idx15,
    val_main_v16_apply, val_main_cst_3_apply]
  simp only [Ideal.hostDivf_def, Ideal.addf_def, Ideal.ofBits_def, Cert.Sage.agg]

/-- The aggregate the second contraction reads: the same mean, of the first layer's result. -/
theorem v40_at (x0 : (⟨S100000x128, .f32⟩ : BufTy).Contents (Elt Ideal)) (x1 x2 : (⟨S1000000, .i32⟩ : BufTy).Contents (Elt Ideal))
    (x3 : (⟨S128x128, .f32⟩ : BufTy).Contents (Elt Ideal)) (x4 : (⟨S128, .f32⟩ : BufTy).Contents (Elt Ideal))
    (r : Fin 100000) (k : Fin 128) :
    val_main_v40 (F := Ideal) x0 x1 x2 x3 x4 (ix2 r k)
      = Cert.Sage.agg (val_main_v24 (F := Ideal) x0 x1 x2 x3 x4) (val_main_v34 (F := Ideal) x0 x1 x2 x3 x4)
          (fun r => val_main_v3 (F := Ideal) x2 (ix1 r)) r k := by
  rw [val_main_v40_apply, val_main_v35_apply, val_main_v39_apply, idx39, val_main_v38_apply, val_main_v36_apply, idx36,
    val_main_v37_apply, val_main_cst_7_apply]
  simp only [Ideal.hostDivf_def, Ideal.addf_def, Ideal.ofBits_def, Cert.Sage.agg]

/-! ## The two results -/

/-- The first result is the rectified dense map of the mean aggregate of the input features. -/
theorem out0_eq (x0 : (⟨S100000x128, .f32⟩ : BufTy).Contents (Elt Ideal)) (x1 x2 : (⟨S1000000, .i32⟩ : BufTy).Contents (Elt Ideal))
    (x3 : (⟨S128x128, .f32⟩ : BufTy).Contents (Elt Ideal)) (x4 : (⟨S128, .f32⟩ : BufTy).Contents (Elt Ideal)) :
    val_main_v24 (F := Ideal) x0 x1 x2 x3 x4
      = Cert.Sage.relu128 x0 (val_main_v13 (F := Ideal) x0 x1 x2) (fun r => val_main_v3 (F := Ideal) x2 (ix1 r)) x3
          (fun q => x4 (ix1 q)) := by
  funext i
  obtain ⟨r, q, rfl⟩ : ∃ (r : Fin 100000) (q : Fin 128), i = ix2 r q := ⟨i 0, i 1, eq_ix2 i⟩
  rw [val_main_v24_apply, val_main_v23_apply, val_main_v20_apply, val_main_v22_apply, idx22, val_main_v21_apply, idx21,
    val_main_call0_v0_apply, val_main_call0_cst_apply, Cert.Sage.relu128_ix2,
    Finset.sum_congr rfl (fun k _ => by rw [lidx20, ridx20, v19_at] :
      ∀ k ∈ (Finset.univ : Finset (Fin 128)),
        val_main_v19 (F := Ideal) x0 x1 x2 (lidx_main_v20 (ix2 r q) k) * x3 (ridx_main_v20 (ix2 r q) k)
          = Cert.Sage.agg x0 (val_main_v13 (F := Ideal) x0 x1 x2) (fun r => val_main_v3 (F := Ideal) x2 (ix1 r)) r k
              * x3 (ix2 k q))]
  simp only [Ideal.maximumf_def, Ideal.addf_def, Ideal.ofBits_def]

/-- The second result is the dense map, into 40 features, of the mean aggregate of the first result. -/
theorem out1_eq (x0 : (⟨S100000x128, .f32⟩ : BufTy).Contents (Elt Ideal)) (x1 x2 : (⟨S1000000, .i32⟩ : BufTy).Contents (Elt Ideal))
    (x3 : (⟨S128x128, .f32⟩ : BufTy).Contents (Elt Ideal)) (x4 : (⟨S128, .f32⟩ : BufTy).Contents (Elt Ideal))
    (x5 : (⟨S128x40, .f32⟩ : BufTy).Contents (Elt Ideal)) (x6 : (⟨S40, .f32⟩ : BufTy).Contents (Elt Ideal)) :
    val_main_v44 (F := Ideal) x0 x1 x2 x3 x4 x5 x6
      = Cert.Sage.lin40 (val_main_v24 (F := Ideal) x0 x1 x2 x3 x4) (val_main_v34 (F := Ideal) x0 x1 x2 x3 x4)
          (fun r => val_main_v3 (F := Ideal) x2 (ix1 r)) x5 (fun q => x6 (ix1 q)) := by
  funext i
  obtain ⟨r, q, rfl⟩ : ∃ (r : Fin 100000) (q : Fin 40), i = ix2 r q := ⟨i 0, i 1, eq_ix2 i⟩
  rw [val_main_v44_apply, val_main_v41_apply, val_main_v43_apply, idx43, val_main_v42_apply, idx42, Cert.Sage.lin40_ix2,
    Finset.sum_congr rfl (fun k _ => by rw [lidx41, ridx41, v40_at] :
      ∀ k ∈ (Finset.univ : Finset (Fin 128)),
        val_main_v40 (F := Ideal) x0 x1 x2 x3 x4 (lidx_main_v41 (ix2 r q) k) * x5 (ridx_main_v41 (ix2 r q) k)
          = Cert.Sage.agg (val_main_v24 (F := Ideal) x0 x1 x2 x3 x4) (val_main_v34 (F := Ideal) x0 x1 x2 x3 x4)
              (fun r => val_main_v3 (F := Ideal) x2 (ix1 r)) r k * x5 (ix2 k q))]
  simp only [Ideal.addf_def]

end Cert.ReferenceIdeal.RefValue

end
-- ==== Proof.Bridge.lean ====
/-
  The idealized kernel's results are the reference's.

  Both programs obtain the degrees and the neighbour sums by the same host operations, so those are one function on
  each side. The kernel keeps the degree in an [N, 1] column and the bias in a [1, 128] row, the reference in [N] and
  [128] arrays: entry (r, 0) of the column is entry r of the array, entry (0, q) of the row is entry q.
  With that the first results are the same layer-1 function. For the second, the kernel's 128-wide dense map over
  the padded weight and bias agrees with the reference's 40-wide one on the first 40 columns, term by term of the sum
  over k, and the kernel returns exactly those columns.
-/
import proofs.«409226_j2963527434976_4_alg».proof.Proof.Fold
import proofs.«409226_j2963527434976_4_alg».proof.Proof.Pad
import proofs.«409226_j2963527434976_4_alg».proof.Proof.RefValue
import Idealize.ShloMosaic.Lib.ValueLayout

noncomputable section

namespace Cert.Bridge

open Idealize.ShloMosaic Idealize.ShloMosaic.ValueIdx
open Cert.KernelIdeal.Host Cert.KernelIdeal.Fold

/-! ## The shared host operations -/

theorem deg_eq (x2 : IVec Cert.KernelIdeal.S1000000 32) :
    Cert.ReferenceIdeal.Read.val_main_v3 (F := Ideal) x2 = degK (F := Ideal) x2 := rfl

theorem neigh_eq (x0 : FVec Ideal Cert.KernelIdeal.S100000x128 .f32) (x1 x2 : IVec Cert.KernelIdeal.S1000000 32) :
    Cert.ReferenceIdeal.Read.val_main_v13 (F := Ideal) x0 x1 x2 = neighK (F := Ideal) x0 x1 x2 := rfl

theorem neigh2_eq (x0 : FVec Ideal Cert.KernelIdeal.S100000x128 .f32) (x1 x2 : IVec Cert.KernelIdeal.S1000000 32)
    (x3 : FVec Ideal Cert.KernelIdeal.S128x128 .f32) (x4 : FVec Ideal Cert.KernelIdeal.S128 .f32) :
    Cert.ReferenceIdeal.Read.val_main_v34 (F := Ideal) x0 x1 x2 x3 x4
      = neighK (F := Ideal) (Cert.ReferenceIdeal.Read.val_main_v24 (F := Ideal) x0 x1 x2 x3 x4) x1 x2 := rfl

/-! ## The column and the row -/

/-- An array as an [a, 1] column: entry (r, 0) is entry r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem degCol_eq (x2 : IVec Cert.KernelIdeal.S1000000 32) : degCol x2 = fun r => degK (F := Ideal) x2 (ix1 r) :=
  funext fun r => shapeCast_a_a1_apply _ _ r 0

theorem biasRow_eq (b : FVec Ideal Cert.KernelIdeal.S128 .f32) : biasRow b = fun q => b (ix1 q) :=
  funext fun q => shapeCast_a_1a_apply _ _ 0 q

/-! ## The first result -/

theorem h1_eq (x0 : FVec Ideal Cert.KernelIdeal.S100000x128 .f32) (x1 x2 : IVec Cert.KernelIdeal.S1000000 32)
    (x3 : FVec Ideal Cert.KernelIdeal.S128x128 .f32) (x4 : FVec Ideal Cert.KernelIdeal.S128 .f32) :
    h1 x0 x1 x2 x3 x4 = Cert.ReferenceIdeal.Read.val_main_v24 (F := Ideal) x0 x1 x2 x3 x4 := by
  rw [Cert.ReferenceIdeal.RefValue.out0_eq]
  unfold h1
  rw [degCol_eq, biasRow_eq]
  rfl

/-! ## The second result -/

theorem h2_eq (x0 : FVec Ideal Cert.KernelIdeal.S100000x128 .f32) (x1 x2 : IVec Cert.KernelIdeal.S1000000 32)
    (x3 : FVec Ideal Cert.KernelIdeal.S128x128 .f32) (x4 : FVec Ideal Cert.KernelIdeal.S128 .f32)
    (x5 : FVec Ideal Cert.KernelIdeal.S128x40 .f32) (x6 : FVec Ideal Cert.KernelIdeal.S40 .f32) :
    extractStridedSlice Cert.KernelIdeal.S100000x40 ![0, 0] (h2wide x0 x1 x2 x3 x4 x5 x6) Cert.KernelIdeal.Facts₀.slices_S100000x128_S100000x40_0_0
      = Cert.ReferenceIdeal.Read.val_main_v44 (F := Ideal) x0 x1 x2 x3 x4 x5 x6 := by
  rw [Cert.ReferenceIdeal.RefValue.out1_eq, neigh2_eq, ← h1_eq]
  funext i
  obtain ⟨r, q, rfl⟩ : ∃ (r : Fin 100000) (q : Fin 40), i = ix2 r q := ⟨i 0, i 1, eq_ix2 i⟩
  rw [slice2_axis1_apply 0 _ _ r q (q.castLE (by decide)) (by simp)]
  unfold h2wide
  rw [degCol_eq, biasRow_eq]
  refine (Cert.Sage.lin128_eq_lin40 _ _ _ (padW x5) (fun q => padB x6 (ix1 q)) x5 (fun q => x6 (ix1 q)) ?_ ?_ r q).trans ?_
  · intro k q'
    exact Cert.KernelIdeal.Pad.scatW_apply _ _ (fun _ => rfl) x5 k q'
  · intro q'
    exact Cert.KernelIdeal.Pad.scatB_apply _ _ (fun _ => rfl) x6 q'
  · rfl

end Cert.Bridge

end
-- ==== Proof.lean ====
/-
  Two layers of GraphSAGE with the "gcn" aggregator over a graph of 100000 nodes and 1000000 edges:
    h1 = max (((neigh feats + feats) / (deg + 1)) · W1 + b1) 0,     h2 = ((neigh h1 + h1) / (deg + 1)) · W2 + b2,
  where `deg` counts the edges arriving at a node and `neigh h` sums the rows of `h` at the sources of those edges.

  The kernel's program computes `deg` and `neigh` on the host exactly as the reference does, and runs each layer's
  dense part as a pallas_call over 100 blocks of 1000 nodes; a block's rows depend only on that block's rows of the
  inputs and on the whole weight and bias, and the contraction over the 128 features is never split, so block by block
  the call writes the same function of the whole arrays that the reference computes at once. For the second layer the
  kernel pads the 128 × 40 weight and the 40-long bias with zeros to 128 columns and returns the first 40 columns of
  the result: on those columns the padded sum over k is term by term the reference's.
  No law of the extended reals beyond reading both sides index by index is used, so the precondition is never opened.

  The three frames: the two kernel programs' are the generated ones; the reference's is its run with the results
  dropped. The ideal pass rewrote nothing, so the idealization claim is trivial.
-/
import proofs.«409226_j2963527434976_4_alg».proof.Defs
import proofs.«409226_j2963527434976_4_alg».proof.Proof.Gen.Kernel
import proofs.«409226_j2963527434976_4_alg».proof.Proof.Gen.Kernel.Skeleton
import proofs.«409226_j2963527434976_4_alg».proof.Proof.Gen.Kernel.Launch
import proofs.«409226_j2963527434976_4_alg».proof.Proof.Gen.Kernel.Points
import proofs.«409226_j2963527434976_4_alg».proof.Proof.Gen.Kernel.Frame
import proofs.«409226_j2963527434976_4_alg».proof.Proof.Gen.KernelIdeal
import proofs.«409226_j2963527434976_4_alg».proof.Proof.Gen.KernelIdeal.Skeleton
import proofs.«409226_j2963527434976_4_alg».proof.Proof.Gen.KernelIdeal.Launch
import proofs.«409226_j2963527434976_4_alg».proof.Proof.Gen.KernelIdeal.Points
import proofs.«409226_j2963527434976_4_alg».proof.Proof.Gen.KernelIdeal.Frame
import proofs.«409226_j2963527434976_4_alg».proof.Proof.Gen.ReferenceIdeal
import proofs.«409226_j2963527434976_4_alg».proof.Proof.Gen.ReferenceIdeal.Run
import proofs.«409226_j2963527434976_4_alg».proof.Proof.Gen.Pre_finite_inputs
import proofs.«409226_j2963527434976_4_alg».proof.Proof.KRun
import proofs.«409226_j2963527434976_4_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with the arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel's run with both results named: layer 1, and the first 40 columns of the padded layer 2. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v16)
            = Cert.KernelIdeal.Fold.h1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_v35)
            = extractStridedSlice Cert.KernelIdeal.S100000x40 ![0, 0] (Cert.KernelIdeal.Fold.h2wide (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
                Cert.KernelIdeal.Facts₀.slices_S100000x128_S100000x40_0_0
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c => ⟨(h c).1.trans (Cert.KernelIdeal.Fold.W5_v16 m ρ c), (h c).2.1.trans (Cert.KernelIdeal.Fold.W5_v35 m ρ c), (h c).2.2⟩)
    (Cert.KernelIdeal.Results.run_results (F := Ideal) m ρ)

/-- From memories agreeing on the arguments the two idealized programs end with equal results: the kernel's are
    layer 1 and the sliced padded layer 2 of its arguments, the reference's two stages are the same functions of its
    own arguments, and the arguments agree. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · refine (Cert.ReferenceIdeal.Read.val_main_v24_eq _ _ _ _ _).trans ?_
    rw [(hagree c).1, (hagree c).2.1, (hagree c).2.2.1, (hagree c).2.2.2.1, (hagree c).2.2.2.2.1]
    exact (Cert.Bridge.h1_eq _ _ _ _ _).symm
  · refine (Cert.ReferenceIdeal.Read.val_main_v44_eq m' c).trans ?_
    rw [(hagree c).1, (hagree c).2.1, (hagree c).2.2.1, (hagree c).2.2.2.1, (hagree c).2.2.2.2.1, (hagree c).2.2.2.2.2.1, (hagree c).2.2.2.2.2.2]
    exact (Cert.Bridge.h2_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
